-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S1000000x64 .f32) (main_arg1 : FVec F S800000x64 .f32) (main_arg2 : FVec F S50000x64 .f32) (main_arg3 : IVec S1000000x2 32) (main_arg4 : IVec S1000000 32) (main_arg5 : FVec F S256x64 .f32) (main_arg6 : FVec F S64 .f32) (main_arg7 : FVec F S64x64 .f32) (main_arg8 : FVec F S64 .f32) (main_arg9 : FVec F S64x32 .f32) (main_arg10 : FVec F S32 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_v13 main_v16
-- ==== Kernel.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1000000x1 : Shape := ⟨2, ![1000000, 1]⟩
abbrev S_ : Shape := ⟨0, ![]⟩
abbrev S1x64 : Shape := ⟨2, ![1, 64]⟩
abbrev S1x32 : Shape := ⟨2, ![1, 32]⟩
abbrev S1000000x32 : Shape := ⟨2, ![1000000, 32]⟩
abbrev S2000x64 : Shape := ⟨2, ![2000, 64]⟩
abbrev S2000x32 : Shape := ⟨2, ![2000, 32]⟩

abbrev nBuf : Space → Nat
  | .hbm => 46
  | .vmem => 16
  | .smem => 0
  | _ => 0

abbrev bufTy : (tb : Table) → Fin (tcTables nBuf tb) → BufTy
  | .hbm, ⟨0, _⟩ => ⟨S1000000x64, .f32⟩
  | .hbm, ⟨1, _⟩ => ⟨S800000x64, .f32⟩
  | .hbm, ⟨2, _⟩ => ⟨S50000x64, .f32⟩
  | .hbm, ⟨3, _⟩ => ⟨S1000000x2, .i32⟩
  | .hbm, ⟨4, _⟩ => ⟨S1000000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1000000x1, .i32⟩
  | .hbm, ⟨12, _⟩ => ⟨S1000000, .i32⟩
  | .hbm, ⟨13, _⟩ => ⟨S1000000x1, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S1x64, .f32⟩
  | .hbm, ⟨43, _⟩ => ⟨S1x64, .f32⟩
  | .hbm, ⟨44, _⟩ => ⟨S1x32, .f32⟩
  | .hbm, ⟨45, _⟩ => ⟨S1000000x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S256x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x32, .f32⟩
  | .local _ .vmem, ⟨13, _⟩ => ⟨S1x32, .f32⟩
  | .local _ .vmem, ⟨14, _⟩ => ⟨S2000x32, .f32⟩
  | .local _ .vmem, ⟨15, _⟩ => ⟨S2000x32, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  shapeCasts_S32_S1x32 : S32.ShapeCasts S1x32
  inb_S256x64_S64x64_0_0 : ∀ a, (![0, 0] : Fin 2 → Nat) a + S64x64.size a ≤ S256x64.size a
  h_S64x64 : 0 < S64x64.numel
  bitsLt_bf16_f32 : FTy.bits .bf16 < FTy.bits .f32
  inb_S256x64_S64x64_64_0 : ∀ a, (![64, 0] : Fin 2 → Nat) a + S64x64.size a ≤ S256x64.size a
  inb_S256x64_S64x64_128_0 : ∀ a, (![128, 0] : Fin 2 → Nat) a + S64x64.size a ≤ S256x64.size a
  inb_S256x64_S64x64_192_0 : ∀ a, (![192, 0] : Fin 2 → Nat) a + S64x64.size a ≤ S256x64.size a
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  gather_S800000x64_S1000000x1_S1000000x64_1_0_n_n_0_1_164_wf : GatherDims.WF S800000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S1000000x64.size a
  hwx0_0 : ∀ i : grid0.Coords, EltTy.bits .f32 = 32 ∨ (Rect.block (s := S1000000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1000000x64.size a
  hwx0_1 : ∀ i : grid0.Coords, EltTy.bits .f32 = 32 ∨ (Rect.block (s := S1000000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S1000000x64.size a
  hwx0_2 : ∀ i : grid0.Coords, EltTy.bits .f32 = 32 ∨ (Rect.block (s := S1000000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S1000000x64.size a
  hwx0_3 : ∀ i : grid0.Coords, EltTy.bits .f32 = 32 ∨ (Rect.block (s := S1000000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x32.size a ≤ S1000000x32.size a
  hwx0_10 : ∀ i : grid0.Coords, EltTy.bits .f32 = 32 ∨ (Rect.block (s := S1000000x32) S2000x32.size (cc0_transform_10 i) (hinb0_10 i)).WholeWords (EltTy.packing .f32)

variable [Facts₀]

def gather_S800000x64_S1000000x1_S1000000x64_1_0_n_n_0_1_164 : GatherDims S800000x64 S1000000x1 S1000000x64 where
  offsetDims := [1]
  collapsedSliceDims := [0]
  operandBatchingDims := []
  startIndicesBatchingDims := []
  startIndexMap := [0]
  indexVectorDim := 1
  sliceSizes := ![1, 64]
  wf := gather_S800000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S2000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1000000x1 : Shape := ⟨2, ![1000000, 1]⟩
abbrev S1000000x256 : Shape := ⟨2, ![1000000, 256]⟩
abbrev S1x64 : Shape := ⟨2, ![1, 64]⟩
abbrev S1000000x32 : Shape := ⟨2, ![1000000, 32]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S800000x64, .f32⟩
  | .hbm, ⟨2, _⟩ => ⟨S50000x64, .f32⟩
  | .hbm, ⟨3, _⟩ => ⟨S1000000x2, .i32⟩
  | .hbm, ⟨4, _⟩ => ⟨S1000000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S_, .i32⟩
  | .hbm, ⟨12, _⟩ => ⟨S1000000x2, .i32⟩
  | .hbm, ⟨13, _⟩ => ⟨S1000000x2, .i1⟩
  | .hbm, ⟨14, _⟩ => ⟨S_, .i32⟩
  | .hbm, ⟨15, _⟩ => ⟨S1000000x2, .i32⟩
  | .hbm, ⟨16, _⟩ => ⟨S1000000x2, .i32⟩
  | .hbm, ⟨17, _⟩ => ⟨S1000000x2, .i32⟩
  | .hbm, ⟨18, _⟩ => ⟨S1000000x2x1, .i32⟩
  | .hbm, ⟨19, _⟩ => ⟨S1000000x2x64, .f32⟩
  | .hbm, ⟨20, _⟩ => ⟨S1000000x128, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x256, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S1000000x64, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S1000000x64, .i1⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .i1⟩
  | .hbm, ⟨59, _⟩ => ⟨S1000000x64, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S1000000x32, .f32⟩
  | .hbm, ⟨68, _⟩ => ⟨S1x32, .f32⟩
  | .hbm, ⟨69, _⟩ => ⟨S1000000x32, .f32⟩
  | .hbm, ⟨70, _⟩ => ⟨S1000000x32, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x128_S1000000x64_S1000000x256_d1 : Shape.Concatenates [S1000000x64, S1000000x128, S1000000x64] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  gather_S800000x64_S1000000x2x1_S1000000x2x64_2_0_n_n_0_2_164_wf : GatherDims.WF S800000x64 S1000000x2x1 S1000000x2x64 [2] [0] [] [0] [] 2 ![1, 64]
  gather_S50000x64_S1000000x1_S1000000x64_1_0_n_n_0_1_164_wf : GatherDims.WF S50000x64 S1000000x1 S1000000x64 [1] [0] [] [0] [] 1 ![1, 64]
  dot_S1000000x256_S256x64_S1000000x64_1_0_0_1_n_n_wf : DotDims.WF S1000000x256 S256x64 S1000000x64 [1] [0] [0] [1] [] []
  dot_S1000000x64_S64x64_S1000000x64_1_0_0_1_n_n_wf : DotDims.WF S1000000x64 S64x64 S1000000x64 [1] [0] [0] [1] [] []
  dot_S1000000x64_S64x32_S1000000x32_1_0_0_1_n_n_wf : DotDims.WF S1000000x64 S64x32 S1000000x32 [1] [0] [0] [1] [] []

variable [Facts₀]

def gather_S800000x64_S1000000x2x1_S1000000x2x64_2_0_n_n_0_2_164 : GatherDims S800000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S800000x64_S1000000x2x1_S1000000x2x64_2_0_n_n_0_2_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf

class Facts : Prop extends Facts₀ where

variable [Facts]
-- ==== Proof.Spec.lean ====
/-
  The mathematics both programs compute, stated once over plain functions of `Fin` coordinates.

  One bond row of the result depends on the same row of four 64-wide feature rows (the bond's own features, the features
  of its two atoms, the features of its global node), on three weight matrices and three bias rows:
      h₁ = x_bond·W₁[0:64] + x_atom0·W₁[64:128] + x_atom1·W₁[128:192] + x_glob·W₁[192:256] + b₁
      h₂ = softplus(h₁)·W₂ + b₂,        out = softplus(h₂)·W₃ + b₃
  with softplus(x) = max(x, 0) + log(1 + exp(-|x|)). The four partial products are one product of the 256-wide concatenated
  row with W₁: a sum over 256 indices split into four sums over 64 (`sum_split4`), which needs only that addition on the
  extended reals is commutative and associative. The atom and global rows are looked up by integer indices: a negative
  index has the table's length added, and the row number is then clamped into the table (`rowAt`, `wrapIdx`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The activation -/

/-- softplus on the extended reals: `max(x, 0) + log(1 + exp(-|x|))`, with `|x| = max(x, -x)`. -/
def softplus (x : EReal) : EReal := max x 0 + Ideal.log1p (Ideal.exp (-(max x (-x))))

/-- A value is never different from itself: the guard both programs put in front of softplus (a test for a value that
    is not a number, of which the extended reals have none) is always off. -/
theorem cmp_one_self (x : EReal) : Ideal.cmp .one x x = 0#1 := by
  simp [Ideal.cmp]

theorem cmp_une_self (x : EReal) : Ideal.cmp .une x x = 0#1 := by
  simp [Ideal.cmp]

/-- The kernel's spelling: the guard on `x - 0`, the guarded value `x + 0`, and `0 - |x - 0|` for the negated magnitude. -/
theorem softplus_of_sub (x : EReal) :
    Scalar.select (Ideal.cmp .one (x - 0) (x - 0)) (x + 0) (max x 0 + Ideal.log1p (Ideal.exp (0 - max (x - 0) (-(x - 0)))))
      = softplus x := by
  rw [cmp_one_self, select_zero, sub_zero, zero_sub]
  rfl

/-- The reference's spelling: the same guard as "unordered or different", and a negation of the magnitude. -/
theorem softplus_of_neg (x : EReal) :
    Scalar.select (Ideal.cmp .une (x - 0) (x - 0)) (x + 0) (max x 0 + Ideal.log1p (Ideal.exp (-(max (x - 0) (-(x - 0))))))
      = softplus x := by
  rw [cmp_une_self, select_zero, sub_zero]
  rfl

/-! ## One row of the three layers -/

/-- Row `o + k` of a 256-row matrix, for a 64-row slice starting at row `o`. -/
abbrev sliceRow (o : Nat) (h : o + 64 ≤ 256) (k : Fin 64) : Fin 256 := ⟨o + k.val, by omega⟩

/-- The first layer before its activation: the four feature rows against the four 64-row slices of `W₁`, summed in the
    kernel's order, plus the bias. -/
def pre1 (xb xa0 xa1 xg : Fin 64 → EReal) (W1 : Fin 256 → Fin 64 → EReal) (b1 : Fin 64 → EReal) (j : Fin 64) : EReal :=
  ((((∑ k : Fin 64, xb k * W1 (sliceRow 0 (by omega) k) j) + (∑ k : Fin 64, xa0 k * W1 (sliceRow 64 (by omega) k) j))
      + (∑ k : Fin 64, xa1 k * W1 (sliceRow 128 (by omega) k) j))
    + (∑ k : Fin 64, xg k * W1 (sliceRow 192 (by omega) k) j)) + b1 j

/-- A dense layer on a 64-wide row: `x·W + b`. -/
def dense {n : Nat} (x : Fin 64 → EReal) (W : Fin 64 → Fin n → EReal) (b : Fin n → EReal) (j : Fin n) : EReal :=
  (∑ k : Fin 64, x k * W k j) + b j

/-- One row of the result. -/
def rowOut (xb xa0 xa1 xg : Fin 64 → EReal) (W1 : Fin 256 → Fin 64 → EReal) (b1 : Fin 64 → EReal)
    (W2 : Fin 64 → Fin 64 → EReal) (b2 : Fin 64 → EReal) (W3 : Fin 64 → Fin 32 → EReal) (b3 : Fin 32 → EReal) (j : Fin 32) : EReal :=
  dense (fun k => softplus (dense (fun k' => softplus (pre1 xb xa0 xa1 xg W1 b1 k')) W2 b2 k)) W3 b3 j

/-! ## A sum over 256 indices as four sums over 64 -/

/-- In any commutative monoid a sum over `Fin 256` is the sum of its four consecutive 64-term stretches. -/
theorem sum_split4 {M : Type*} [AddCommMonoid M] (f : Fin 256 → M) :
    ∑ k : Fin 256, f k
      = (((∑ k : Fin 64, f (sliceRow 0 (by omega) k)) + (∑ k : Fin 64, f (sliceRow 64 (by omega) k)))
          + (∑ k : Fin 64, f (sliceRow 128 (by omega) k))) + (∑ k : Fin 64, f (sliceRow 192 (by omega) k)) := by
  have h := Fin.sum_univ_add (a := 192) (b := 64) (f : Fin (192 + 64) → M)
  have h' := Fin.sum_univ_add (a := 128) (b := 64) (fun i : Fin (128 + 64) => f (Fin.castAdd 64 i))
  have h'' := Fin.sum_univ_add (a := 64) (b := 64) (fun i : Fin (64 + 64) => f (Fin.castAdd 64 (Fin.castAdd 64 i)))
  refine h.trans ?_
  refine congrArg₂ (· + ·) (h'.trans (congrArg₂ (· + ·) (h''.trans (congrArg₂ (· + ·) ?_ ?_)) ?_)) ?_
  · exact Finset.sum_congr rfl fun k _ => congrArg f (Fin.ext (by first | (simp [sliceRow]; done) | (simp [sliceRow]; omega)))
  · exact Finset.sum_congr rfl fun k _ => congrArg f (Fin.ext (by first | (simp [sliceRow]; done) | (simp [sliceRow]; omega)))
  · exact Finset.sum_congr rfl fun k _ => congrArg f (Fin.ext (by first | (simp [sliceRow]; done) | (simp [sliceRow]; omega)))
  · exact Finset.sum_congr rfl fun k _ => congrArg f (Fin.ext (by first | (simp [sliceRow]; done) | (simp [sliceRow]; omega)))

/-! ## Looking a row up by an integer index -/

/-- A negative index counts from the end of a table of `n` rows: `v < 0 ? v + n : v`. -/
def wrapIdx (n v : BitVec 32) : BitVec 32 := Scalar.select (IntOp.cmpi .slt v 0#32) (IntOp.addi v n) v

/-- The row a (signed) index word selects in a table of `N` rows: the index clamped into `[0, N - 1]`. -/
def rowAt (N : Nat) (hN : 0 < N) (v : BitVec 32) : Fin N := ⟨min v.toInt.toNat (N - 1), by omega⟩

/-! ## The arrays -/

/-- The rows of a table `[N, 64]` selected by one index word per bond: row `r` of the result is the table's row at the
    index of bond `r`, counted from the end when negative (`n` is `N` as a word) and clamped into the table. -/
def takeRows (N : Nat) (hN : 0 < N) (n : BitVec 32) (tbl : (⟨2, ![N, 64]⟩ : Shape).Idx → EReal)
    (v : Fin 1000000 → BitVec 32) : (⟨2, ![1000000, 64]⟩ : Shape).Idx → EReal :=
  fun i => tbl (ix2 (rowAt N hN (wrapIdx n (v (i 0)))) (i 1))

/-- The three layers applied row by row to the four feature arrays. -/
def mlp (bond a0 a1 g : (⟨2, ![1000000, 64]⟩ : Shape).Idx → EReal)
    (W1 : (⟨2, ![256, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal) :
    (⟨2, ![1000000, 32]⟩ : Shape).Idx → EReal :=
  fun i => rowOut (fun k => bond (ix2 (i 0) k)) (fun k => a0 (ix2 (i 0) k)) (fun k => a1 (ix2 (i 0) k))
    (fun k => g (ix2 (i 0) k)) (fun k j => W1 (ix2 k j)) (fun j => b1 (ix1 j)) (fun k j => W2 (ix2 k j))
    (fun j => b2 (ix1 j)) (fun k j => W3 (ix2 k j)) (fun j => b3 (ix1 j)) (i 1)

/-- The atom features of a bond's first (`s = 0`) or second (`s = 1`) atom, for every bond. -/
def atomRows (atom : (⟨2, ![800000, 64]⟩ : Shape).Idx → EReal) (aidx : (⟨2, ![1000000, 2]⟩ : Shape).Idx → BitVec 32)
    (s : Fin 2) : (⟨2, ![1000000, 64]⟩ : Shape).Idx → EReal :=
  takeRows 800000 (by decide) 800000#32 atom (fun r => aidx (ix2 r s))

/-- The features of a bond's global node, for every bond. -/
def globRows (glob : (⟨2, ![50000, 64]⟩ : Shape).Idx → EReal) (gidx : (⟨1, ![1000000]⟩ : Shape).Idx → BitVec 32) :
    (⟨2, ![1000000, 64]⟩ : Shape).Idx → EReal :=
  takeRows 50000 (by decide) 50000#32 glob (fun r => gidx (ix1 r))

/-- THE RESULT as one function of the eleven arguments. -/
def result (bond : (⟨2, ![1000000, 64]⟩ : Shape).Idx → EReal) (atom : (⟨2, ![800000, 64]⟩ : Shape).Idx → EReal)
    (glob : (⟨2, ![50000, 64]⟩ : Shape).Idx → EReal) (aidx : (⟨2, ![1000000, 2]⟩ : Shape).Idx → BitVec 32)
    (gidx : (⟨1, ![1000000]⟩ : Shape).Idx → BitVec 32)
    (W1 : (⟨2, ![256, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal) :
    (⟨2, ![1000000, 32]⟩ : Shape).Idx → EReal :=
  mlp bond (atomRows atom aidx 0) (atomRows atom aidx 1) (globRows glob gidx) W1 b1 W2 b2 W3 b3

end Cert.Spec

end
-- ==== Proof.KernelBody.lean ====
/-
  What the kernel's body stores, read at one element.

  The body loads a 2000-row block of each of the four feature arrays, the four 64-row slices of W₁, W₂, W₃ and the three
  bias rows, and stores one 2000×32 block. Read at row `p` and column `q`, the stored value is the specification's
  `rowOut` of row `p` of the four feature blocks: every matrix product is the plain sum over its 64 contracted indices
  (a product into a zero accumulator; the narrowing of the operands to a shorter float format is the identity on the
  extended reals), every bias is the one bias row repeated down the block, and the activation between the layers is the
  specification's softplus in the kernel's spelling.
-/
import proofs.«167409_j18373870092600_1_alg».proof.Proof.Gen.KernelIdeal.Skeleton
import proofs.«167409_j18373870092600_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix products at an element -/

theorem lhs_mm64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mm64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mm64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mm64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem lhs_mm32_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_mm32_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem rhs_mm32_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem rhs_mm32_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- A 2000×64 block times a 64×64 matrix into a zero accumulator: element `(p, j)` is the sum over `k` of `l[p, k] · r[k, j]`. -/
theorem mm64_apply {φ₁ φ₂ : FTy} (l : FVec Ideal S2000x64 φ₁) (r : FVec Ideal S64x64 φ₂) (p : Fin 2000) (j : Fin 64) :
    matmul dot_S2000x64_S64x64_S2000x64_1_0_0_1_n_n none l r (constant S2000x64 .f32 0x00000000#32) (ix2 p j)
      = ∑ k : Fin 64, l (ix2 p k) * r (ix2 k j) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p j) ((ValueIdx.contrEquiv1 dot_S2000x64_S64x64_S2000x64_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S2000x64_S64x64_S2000x64_1_0_0_1_n_n.rhsIdx (ix2 p j) ((ValueIdx.contrEquiv1 dot_S2000x64_S64x64_S2000x64_1_0_0_1_n_n 64 rfl rfl).symm k) = ix2 k j := funext fun a => Fin.ext (by
    match a with
    | ⟨0, _⟩ => exact (rhs_mm64_0 _ _).trans hk
    | ⟨1, _⟩ => exact rhs_mm64_1 _ _)
  rw [el, er]

/-- A 2000×64 block times a 64×32 matrix into a zero accumulator: element `(p, j)` is the sum over `k` of `l[p, k] · r[k, j]`. -/
theorem mm32_apply {φ₁ φ₂ : FTy} (l : FVec Ideal S2000x64 φ₁) (r : FVec Ideal S64x32 φ₂) (p : Fin 2000) (j : Fin 32) :
    matmul dot_S2000x64_S64x32_S2000x32_1_0_0_1_n_n none l r (constant S2000x32 .f32 0x00000000#32) (ix2 p j)
      = ∑ k : Fin 64, l (ix2 p k) * r (ix2 k j) := by
  simp only [matmul]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p j) ((ValueIdx.contrEquiv1 dot_S2000x64_S64x32_S2000x32_1_0_0_1_n_n 64 rfl rfl).symm k) = ix2 p k := funext fun a => Fin.ext (by
    match a with
    | ⟨0, _⟩ => exact lhs_mm32_0 _ _
    | ⟨1, _⟩ => exact (lhs_mm32_1 _ _).trans hk)
  have er : dot_S2000x64_S64x32_S2000x32_1_0_0_1_n_n.rhsIdx (ix2 p j) ((ValueIdx.contrEquiv1 dot_S2000x64_S64x32_S2000x32_1_0_0_1_n_n 64 rfl rfl).symm k) = ix2 k j := funext fun a => Fin.ext (by
    match a with
    | ⟨0, _⟩ => exact (rhs_mm32_0 _ _).trans hk
    | ⟨1, _⟩ => exact rhs_mm32_1 _ _)
  rw [el, er]

/-! ## A bias row repeated down the block -/

/-- The one-row bias, cast to itself and broadcast down 2000 rows, read at `(p, j)` is the row's entry `j`. -/
theorem bias64_apply {α : Type} (v : S1x64.Idx → α) (p : Fin 2000) (j : Fin 64) :
    broadcastTo S2000x64 (shapeCast S1x64 v shapeCasts_S1x64_S1x64) broadcasts_S1x64_S2000x64 (ix2 p j) = v (ix2 (0 : Fin 1) j) := by
  rw [shapeCast_self]
  refine broadcastTo_apply v broadcasts_S1x64_S2000x64 (ix2 p j) (ix2 (0 : Fin 1) j) ?_
  intro a
  match a with
  | ⟨0, _⟩ => rfl
  | ⟨1, _⟩ => rfl

theorem bias32_apply {α : Type} (v : S1x32.Idx → α) (p : Fin 2000) (j : Fin 32) :
    broadcastTo S2000x32 (shapeCast S1x32 v shapeCasts_S1x32_S1x32) broadcasts_S1x32_S2000x32 (ix2 p j) = v (ix2 (0 : Fin 1) j) := by
  rw [shapeCast_self]
  refine broadcastTo_apply v broadcasts_S1x32_S2000x32 (ix2 p j) (ix2 (0 : Fin 1) j) ?_
  intro a
  match a with
  | ⟨0, _⟩ => rfl
  | ⟨1, _⟩ => rfl

/-! ## The activation, elementwise -/

/-- The kernel's softplus of a vector, read at an element, is the specification's softplus of that element. -/
theorem softplus_vec_apply {S : Shape} (h : FVec Ideal S .f32) (i : S.Idx) :
    select (cmpf .one (subf h (broadcast S (Scalar.ofBits .f32 0x00000000#32))) (subf h (broadcast S (Scalar.ofBits .f32 0x00000000#32))))
        (addf h (broadcast S (Scalar.ofBits .f32 0x00000000#32)))
        (addf (maximumf h (broadcast S (Scalar.ofBits .f32 0x00000000#32)))
          (log1p (exp (subf (broadcast S (Scalar.ofBits .f32 0x00000000#32)) (absf (subf h (broadcast S (Scalar.ofBits .f32 0x00000000#32)))))))) i
      = Cert.Spec.softplus (h i) := by
  show Scalar.select (Ideal.cmp .one ((h i : EReal) - Ideal.ofBits .f32 0x00000000#32) ((h i : EReal) - Ideal.ofBits .f32 0x00000000#32))
      ((h i : EReal) + Ideal.ofBits .f32 0x00000000#32)
      (max (h i : EReal) (Ideal.ofBits .f32 0x00000000#32) + Ideal.log1p (Ideal.exp (Ideal.ofBits .f32 0x00000000#32
        - max ((h i : EReal) - Ideal.ofBits .f32 0x00000000#32) (-((h i : EReal) - Ideal.ofBits .f32 0x00000000#32))))) = _
  rw [Ideal.ofBits_zero_f32]
  exact Cert.Spec.softplus_of_sub (h i)

/-! ## The stored value at an element -/

/-- The first layer before its activation, at row `p` and column `j` of the block: the four partial products in the
    kernel's order, plus the bias row's entry. -/
theorem pay2_apply (v0 v2 v4 v6 : Vec Ideal S64x64 .f32) (v8 v10 v13 v16 : Vec Ideal S2000x64 .f32)
    (v26 : Vec Ideal S1x64 .f32) (p : Fin 2000) (j : Fin 64) :
    k0_pay2 (F := Ideal) v0 v2 v4 v6 v8 v10 v13 v16 v26 (ix2 p j)
      = ((((∑ k : Fin 64, v8 (ix2 p k) * v0 (ix2 k j)) + (∑ k : Fin 64, v10 (ix2 p k) * v2 (ix2 k j)))
          + (∑ k : Fin 64, v13 (ix2 p k) * v4 (ix2 k j))) + (∑ k : Fin 64, v16 (ix2 p k) * v6 (ix2 k j)))
        + v26 (ix2 (0 : Fin 1) j) := by
  unfold k0_pay2
  simp only [addf_apply]
  rw [mm64_apply, mm64_apply, mm64_apply, mm64_apply, bias64_apply]
  simp only [shapeCast_self]
  rfl

/-- THE STORED VALUE at row `p`, column `q`: the third layer of the activated second layer of the activated first. -/
theorem body_apply (v0 v2 v4 v6 : Vec Ideal S64x64 .f32) (v8 v10 v13 v16 : Vec Ideal S2000x64 .f32)
    (v26 : Vec Ideal S1x64 .f32) (v44 : Vec Ideal S64x64 .f32) (v48 : Vec Ideal S1x64 .f32) (v66 : Vec Ideal S64x32 .f32)
    (v70 : Vec Ideal S1x32 .f32) (p : Fin 2000) (q : Fin 32) :
    k0_pay1 (k0_pay2 (F := Ideal) v0 v2 v4 v6 v8 v10 v13 v16 v26) (k0_pay3 v0 v2 v4 v6 v8 v10 v13 v16 v26) (k0_pay4 v0 v2 v4 v6 v8 v10 v13 v16 v26) (k0_pay5 v0 v2 v4 v6 v8 v10 v13 v16 v26) (k0_pay6 (F := Ideal))
        v44 v48 v66 v70 (ix2 p q)
      = Cert.Spec.dense (fun k => Cert.Spec.softplus (Cert.Spec.dense
            (fun k' => Cert.Spec.softplus (k0_pay2 (F := Ideal) v0 v2 v4 v6 v8 v10 v13 v16 v26 (ix2 p k')))
            (fun k' j => v44 (ix2 k' j)) (fun j => v48 (ix2 (0 : Fin 1) j)) k))
          (fun k j => v66 (ix2 k j)) (fun j => v70 (ix2 (0 : Fin 1) j)) q := by
  unfold k0_pay1 k0_pay3 k0_pay5 k0_pay4 k0_pay6
  unfold Cert.Spec.dense
  simp only [addf_apply]
  rw [mm32_apply, bias32_apply]
  refine congrArg₂ (· + ·) (Finset.sum_congr rfl fun k _ => congrArg₂ (· * ·) ?_ rfl) rfl
  simp only [truncf_apply]
  refine (softplus_vec_apply _ (ix2 p k)).trans (congrArg Cert.Spec.softplus ?_)
  simp only [addf_apply]
  rw [mm64_apply, bias64_apply]
  refine congrArg₂ (· + ·) (Finset.sum_congr rfl fun k' _ => congrArg₂ (· * ·) ?_ rfl) rfl
  simp only [truncf_apply]
  exact softplus_vec_apply _ (ix2 p k')

end Cert.KernelIdeal.Body

end
-- ==== Proof.LibGatherRows.lean ====
/-
  A row gather read at an index.

  `table[idx]` for a table `[N, C]` and integer indices lowers to `stablehlo.gather` with one collapsed operand axis
  (the rows), whole rows as slices (`slice_sizes = [1, C]`) and the start indices carried with a trailing axis of
  extent one. Result element `(…, k)` is the table's element in column `k` of the row whose number is the start index
  read as a signed integer and clamped into `[0, N - 1]` (StableHLO clamps every start index so that the slice fits).
  Two layouts of the indices occur: one index per result row (`[R, 1]`, result `[R, C]`), and `P` indices per result row
  (`[R, P, 1]`, result `[R, P, C]`).
-/
import Idealize.ShloMosaic.PureOps.Ideal
import Idealize.ShloMosaic.Lib.ValueIdx

noncomputable section

namespace Cert.LibGatherRows

open Idealize.ShloMosaic Idealize.ShloMosaic.ValueIdx

variable {α : Type}

/-! ## One index per result row -/

/-- The dimension numbers of `table[idx]` for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, k)`: column `k` of the table's row at the start index `idx[r, 0]`, read signed and clamped
    into `[0, N - 1]`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowDims N C R wf).start (ix2 r k) idx 0 + (rowDims N C R wf).batchCoord (ix2 r k) 0
        + (rowDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r k) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r k) idx 1 + (rowDims N C R wf).batchCoord (ix2 r k) 1
        + (rowDims N C R wf).offCoord (ix2 r k) 1 = k.val
    rw [GatherDims.batchCoord_eq_zero _ _ _ List.not_mem_nil]
    unfold GatherDims.start
    rw [dif_neg (show ¬ (1 : Fin 2) ∈ (rowDims N C R wf).startIndexMap from
      fun h => absurd (List.mem_singleton.mp h) (show (1 : Fin 2) ≠ 0 by decide))]
    unfold GatherDims.offCoord
    rw [dif_pos (show (1 : Fin 2) ∈ (rowDims N C R wf).sKept from
      (GatherDims.mem_sKept _ _).mpr ⟨fun h => absurd (List.mem_singleton.mp h) (show (1 : Fin 2) ≠ 0 by decide), List.not_mem_nil⟩)]
    simp only [Nat.zero_add, Nat.add_zero]
    rfl

end Cert.LibGatherRows

end
-- ==== Proof.KernelValue.lean ====
/-
  From blocks to the array.

  Grid point `t` of 500 stages rows `2000·t … 2000·t + 1999` of the four feature arrays (the bond features as given; the
  two atom-feature arrays and the global-feature array as the host's row lookups left them) and the whole of the weight
  and bias arrays, and writes back rows `2000·t …` of the result. So what point `t` writes is block `t` of ONE function
  of the arguments — the specification's `result` — and the 500 blocks tile the 1 000 000 rows: the array ends holding
  that function.
-/
import proofs.«167409_j18373870092600_1_alg».proof.Proof.Gen.KernelIdeal.Value
import proofs.«167409_j18373870092600_1_alg».proof.Proof.KernelBody
import proofs.«167409_j18373870092600_1_alg».proof.Proof.Spec
import proofs.«167409_j18373870092600_1_alg».proof.Proof.LibGatherRows
import Idealize.ShloMosaic.Lib.StableHlo.Run
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.ShloMosaic.ValueIdx
  Idealize.SL.Sem Idealize.ShloMosaic.StableHlo
open Idealize.ShloMosaic.Pipeline (Dat)

/-! ## The body's buffer at an element, over the blocks -/

theorem hz : (![0, 0] : Fin 2 → Nat) = fun _ => 0 := funext fun a => by fin_cases a <;> rfl

/-- The element `(k, j)` of a 64-row rectangle of the W₁ block starting at row `o` is the block's element `(o + k, j)`. -/
theorem idx_rows (o : Nat) (ho : o + 64 ≤ 256)
    (inb : ∀ a, (![o, 0] : Fin 2 → Nat) a + S64x64.size a ≤ S256x64.size a) (k j : Fin 64) :
    (Rect.unit (s := S256x64) ![o, 0] S64x64.size inb).idx (ix2 k j) = ix2 (Cert.Spec.sliceRow o ho k) j := by
  refine funext fun a => Fin.ext ?_
  match a with
  | ⟨0, _⟩ => show o + 1 * k.val = o + k.val; omega
  | ⟨1, _⟩ => show 0 + 1 * j.val = j.val; omega

theorem idx_r0_0 (k j : Fin 64) : r0_0.idx (ix2 k j) = ix2 (Cert.Spec.sliceRow 0 (by omega) k) j := idx_rows 0 (by omega) _ k j
theorem idx_r0_1 (k j : Fin 64) : r0_1.idx (ix2 k j) = ix2 (Cert.Spec.sliceRow 64 (by omega) k) j := idx_rows 64 (by omega) _ k j
theorem idx_r0_2 (k j : Fin 64) : r0_2.idx (ix2 k j) = ix2 (Cert.Spec.sliceRow 128 (by omega) k) j := idx_rows 128 (by omega) _ k j
theorem idx_r0_3 (k j : Fin 64) : r0_3.idx (ix2 k j) = ix2 (Cert.Spec.sliceRow 192 (by omega) k) j := idx_rows 192 (by omega) _ k j

/-- THE BODY'S BUFFER at row `p`, column `q`: the specification's row function of row `p` of the four feature blocks. -/
theorem out_apply (x0 x1 x2 x3 : Vec Ideal S2000x64 .f32) (x4 : Vec Ideal S256x64 .f32) (x5 : Vec Ideal S1x64 .f32)
    (x6 : Vec Ideal S64x64 .f32) (x7 : Vec Ideal S1x64 .f32) (x8 : Vec Ideal S64x32 .f32) (x9 : Vec Ideal S1x32 .f32)
    (p : Fin 2000) (q : Fin 32) :
    out0_10 x0 x1 x2 x3 x4 x5 x6 x7 x8 x9 (ix2 p q)
      = Cert.Spec.rowOut (fun k => x0 (ix2 p k)) (fun k => x1 (ix2 p k)) (fun k => x2 (ix2 p k)) (fun k => x3 (ix2 p k))
          (fun k j => x4 (ix2 k j)) (fun j => x5 (ix2 (0 : Fin 1) j)) (fun k j => x6 (ix2 k j))
          (fun j => x7 (ix2 (0 : Fin 1) j)) (fun k j => x8 (ix2 k j)) (fun j => x9 (ix2 (0 : Fin 1) j)) q := by
  unfold out0_10
  rw [View.canon_unit_zero hz]
  simp only [View.ld_unit_zero (S := S2000x64) hz, View.ld_unit_zero (S := S1x64) hz, View.ld_unit_zero (S := S64x64) hz,
    View.ld_unit_zero (S := S64x32) hz, View.ld_unit_zero (S := S1x32) hz]
  rw [Body.body_apply]
  unfold Cert.Spec.rowOut Cert.Spec.pre1
  simp only [Body.pay2_apply, View.ld, idx_r0_0, idx_r0_1, idx_r0_2, idx_r0_3]

/-! ## The host's stages in front of the region, read at an index -/

section Host

variable (m : (ℓ : Loc nD τ sig) → Buf (Elt Ideal) ℓ)

/-- Column 0 / column 1 of the index pairs as a flat vector: a one-column slice, flattened. -/
abbrev col0 (A3 : S1000000x2.Idx → BitVec 32) : S1000000.Idx → BitVec 32 :=
  shapeCast S1000000 (extractStridedSlice S1000000x1 ![0, 0] A3 slices_S1000000x2_S1000000x1_0_0) shapeCasts_S1000000x1_S1000000
abbrev col1 (A3 : S1000000x2.Idx → BitVec 32) : S1000000.Idx → BitVec 32 :=
  shapeCast S1000000 (extractStridedSlice S1000000x1 ![0, 1] A3 slices_S1000000x2_S1000000x1_0_1) shapeCasts_S1000000x1_S1000000

/-- The index words as the gather reads them: `w < 0 ? w + n : w`, laid out as one column. -/
abbrev wrapChain (n : BitVec 32) (w : S1000000.Idx → BitVec 32) : S1000000x1.Idx → BitVec 32 :=
  broadcastInDim S1000000x1 ![0] bcast_S1000000_S1000000x1_0
    (select (cmpi .slt w (broadcastInDim S1000000 ![] bcast_S_S1000000 (constantI S_ 32 0#32)))
      (addi w (broadcastInDim S1000000 ![] bcast_S_S1000000 (constantI S_ 32 n))) w)

theorem col0_apply (A3 : S1000000x2.Idx → BitVec 32) (r : Fin 1000000) : col0 A3 (ix1 r) = A3 (ix2 r (0 : Fin 2)) := by
  refine (shapeCast_apply _ shapeCasts_S1000000x1_S1000000 (ix1 r) (ix2 r (0 : Fin 1)) (by
    rw [Shape.rowMajor_val_two, Shape.rowMajor_val_one]; show r.val * 1 + 0 = r.val; omega)).trans ?_
  exact extractStridedSlice_apply ![0, 0] A3 slices_S1000000x2_S1000000x1_0_0 (ix2 r (0 : Fin 1)) (ix2 r (0 : Fin 2))
    (fun a => match a with
      | ⟨0, _⟩ => by show r.val = 0 + r.val; omega
      | ⟨1, _⟩ => by show (0 : Nat) = 0 + 0; rfl)

theorem col1_apply (A3 : S1000000x2.Idx → BitVec 32) (r : Fin 1000000) : col1 A3 (ix1 r) = A3 (ix2 r (1 : Fin 2)) := by
  refine (shapeCast_apply _ shapeCasts_S1000000x1_S1000000 (ix1 r) (ix2 r (0 : Fin 1)) (by
    rw [Shape.rowMajor_val_two, Shape.rowMajor_val_one]; show r.val * 1 + 0 = r.val; omega)).trans ?_
  exact extractStridedSlice_apply ![0, 1] A3 slices_S1000000x2_S1000000x1_0_1 (ix2 r (0 : Fin 1)) (ix2 r (1 : Fin 2))
    (fun a => match a with
      | ⟨0, _⟩ => by show r.val = 0 + r.val; omega
      | ⟨1, _⟩ => by show (1 : Nat) = 1 + 0; rfl)

theorem wrapChain_apply (n : BitVec 32) (w : S1000000.Idx → BitVec 32) (r : Fin 1000000) :
    wrapChain n w (ix2 r (0 : Fin 1)) = Cert.Spec.wrapIdx n (w (ix1 r)) := by
  refine (broadcastInDim_apply ![0] bcast_S1000000_S1000000x1_0 _ (ix2 r (0 : Fin 1)) (ix1 r) (fun a => match a with
    | ⟨0, _⟩ => by show r.val = if (1000000 : Nat) = 1 then 0 else r.val; rw [if_neg (by decide)])).trans ?_
  rfl

/-- A one-row reshape of a vector, read at `(0, j)`, is the vector's entry `j`. -/
theorem row64_apply {α : Type} (v : S64.Idx → α) (j : Fin 64) : shapeCast S1x64 v shapeCasts_S64_S1x64 (ix2 (0 : Fin 1) j) = v (ix1 j) :=
  shapeCast_apply v shapeCasts_S64_S1x64 (ix2 (0 : Fin 1) j) (ix1 j) (by
    rw [Shape.rowMajor_val_two, Shape.rowMajor_val_one]; show j.val = 0 * 64 + j.val; omega)
theorem row32_apply {α : Type} (v : S32.Idx → α) (j : Fin 32) : shapeCast S1x32 v shapeCasts_S32_S1x32 (ix2 (0 : Fin 1) j) = v (ix1 j) :=
  shapeCast_apply v shapeCasts_S32_S1x32 (ix2 (0 : Fin 1) j) (ix1 j) (by
    rw [Shape.rowMajor_val_two, Shape.rowMajor_val_one]; show j.val = 0 * 32 + j.val; omega)

set_option maxHeartbeats 2000000 in
/-- What the region finds in the three gathered arrays and the three reshaped biases: the operations' terms. -/
theorem V_atom0 (c : Dev nD) : (V m c main_v10 : S1000000x64.Idx → EReal)
    = Host.gather gather_S800000x64_S1000000x1_S1000000x64_1_0_n_n_0_1_164 (m ((c : Thread nD τ).loc main_arg1)) (wrapChain 800000#32 (col0 (m ((c : Thread nD τ).loc main_arg3)))) := by
  dsimp only [V, hostOps0]; after_results <;> rfl
set_option maxHeartbeats 2000000 in
theorem V_atom1 (c : Dev nD) : (V m c main_v17 : S1000000x64.Idx → EReal)
    = Host.gather gather_S800000x64_S1000000x1_S1000000x64_1_0_n_n_0_1_164 (m ((c : Thread nD τ).loc main_arg1)) (wrapChain 800000#32 (col1 (m ((c : Thread nD τ).loc main_arg3)))) := by
  dsimp only [V, hostOps0]; after_results <;> rfl
set_option maxHeartbeats 2000000 in
theorem V_glob (c : Dev nD) : (V m c main_v24 : S1000000x64.Idx → EReal)
    = Host.gather gather_S50000x64_S1000000x1_S1000000x64_1_0_n_n_0_1_164 (m ((c : Thread nD τ).loc main_arg2)) (wrapChain 50000#32 (m ((c : Thread nD τ).loc main_arg4))) := by
  dsimp only [V, hostOps0]; after_results <;> rfl
set_option maxHeartbeats 2000000 in
theorem V_b1 (c : Dev nD) : (V m c main_v25 : S1x64.Idx → EReal) = shapeCast S1x64 ((m ((c : Thread nD τ).loc main_arg6)) : S64.Idx → EReal) shapeCasts_S64_S1x64 := by
  dsimp only [V, hostOps0]; after_results <;> rfl
set_option maxHeartbeats 2000000 in
theorem V_b2 (c : Dev nD) : (V m c main_v26 : S1x64.Idx → EReal) = shapeCast S1x64 ((m ((c : Thread nD τ).loc main_arg8)) : S64.Idx → EReal) shapeCasts_S64_S1x64 := by
  dsimp only [V, hostOps0]; after_results <;> rfl
set_option maxHeartbeats 2000000 in
theorem V_b3 (c : Dev nD) : (V m c main_v27 : S1x32.Idx → EReal) = shapeCast S1x32 ((m ((c : Thread nD τ).loc main_arg10)) : S32.Idx → EReal) shapeCasts_S32_S1x32 := by
  dsimp only [V, hostOps0]; after_results <;> rfl

/-- The gathered arrays are the specification's row lookups. -/
theorem V_atom0_apply (c : Dev nD) (r : Fin 1000000) (k : Fin 64) :
    (V m c main_v10 : S1000000x64.Idx → EReal) (ix2 r k) = Cert.Spec.atomRows (m ((c : Thread nD τ).loc main_arg1)) (m ((c : Thread nD τ).loc main_arg3)) 0 (ix2 r k) := by
  rw [V_atom0]
  refine (Cert.LibGatherRows.gather_rows_apply (N := 800000) (C := 64) (R := 1000000) (by decide)
    Facts₀.gather_S800000x64_S1000000x1_S1000000x64_1_0_n_n_0_1_164_wf (m ((c : Thread nD τ).loc main_arg1)) (wrapChain 800000#32 (col0 (m ((c : Thread nD τ).loc main_arg3)))) r k).trans ?_
  exact congrArg (fun v => (m ((c : Thread nD τ).loc main_arg1)) (ix2 (Cert.Spec.rowAt 800000 (by decide) v) k))
    ((wrapChain_apply 800000#32 (col0 (m ((c : Thread nD τ).loc main_arg3))) r).trans
      (congrArg (Cert.Spec.wrapIdx 800000#32) (col0_apply (m ((c : Thread nD τ).loc main_arg3)) r)))
theorem V_atom1_apply (c : Dev nD) (r : Fin 1000000) (k : Fin 64) :
    (V m c main_v17 : S1000000x64.Idx → EReal) (ix2 r k) = Cert.Spec.atomRows (m ((c : Thread nD τ).loc main_arg1)) (m ((c : Thread nD τ).loc main_arg3)) 1 (ix2 r k) := by
  rw [V_atom1]
  refine (Cert.LibGatherRows.gather_rows_apply (N := 800000) (C := 64) (R := 1000000) (by decide)
    Facts₀.gather_S800000x64_S1000000x1_S1000000x64_1_0_n_n_0_1_164_wf (m ((c : Thread nD τ).loc main_arg1)) (wrapChain 800000#32 (col1 (m ((c : Thread nD τ).loc main_arg3)))) r k).trans ?_
  exact congrArg (fun v => (m ((c : Thread nD τ).loc main_arg1)) (ix2 (Cert.Spec.rowAt 800000 (by decide) v) k))
    ((wrapChain_apply 800000#32 (col1 (m ((c : Thread nD τ).loc main_arg3))) r).trans
      (congrArg (Cert.Spec.wrapIdx 800000#32) (col1_apply (m ((c : Thread nD τ).loc main_arg3)) r)))
theorem V_glob_apply (c : Dev nD) (r : Fin 1000000) (k : Fin 64) :
    (V m c main_v24 : S1000000x64.Idx → EReal) (ix2 r k) = Cert.Spec.globRows (m ((c : Thread nD τ).loc main_arg2)) (m ((c : Thread nD τ).loc main_arg4)) (ix2 r k) := by
  rw [V_glob]
  refine (Cert.LibGatherRows.gather_rows_apply (N := 50000) (C := 64) (R := 1000000) (by decide)
    Facts₀.gather_S50000x64_S1000000x1_S1000000x64_1_0_n_n_0_1_164_wf (m ((c : Thread nD τ).loc main_arg2)) (wrapChain 50000#32 (m ((c : Thread nD τ).loc main_arg4))) r k).trans ?_
  exact congrArg (fun v => (m ((c : Thread nD τ).loc main_arg2)) (ix2 (Cert.Spec.rowAt 50000 (by decide) v) k))
    (wrapChain_apply 50000#32 (m ((c : Thread nD τ).loc main_arg4)) r)

theorem V_atom0_eq (c : Dev nD) :
    (V m c main_v10 : S1000000x64.Idx → EReal) = Cert.Spec.atomRows (m ((c : Thread nD τ).loc main_arg1)) (m ((c : Thread nD τ).loc main_arg3)) 0 := funext fun i => by
  obtain ⟨r, k, rfl⟩ : ∃ (r : Fin 1000000) (k : Fin 64), i = ix2 r k := ⟨i 0, i 1, eq_ix2 i⟩
  exact V_atom0_apply m c r k
theorem V_atom1_eq (c : Dev nD) :
    (V m c main_v17 : S1000000x64.Idx → EReal) = Cert.Spec.atomRows (m ((c : Thread nD τ).loc main_arg1)) (m ((c : Thread nD τ).loc main_arg3)) 1 := funext fun i => by
  obtain ⟨r, k, rfl⟩ : ∃ (r : Fin 1000000) (k : Fin 64), i = ix2 r k := ⟨i 0, i 1, eq_ix2 i⟩
  exact V_atom1_apply m c r k
theorem V_glob_eq (c : Dev nD) :
    (V m c main_v24 : S1000000x64.Idx → EReal) = Cert.Spec.globRows (m ((c : Thread nD τ).loc main_arg2)) (m ((c : Thread nD τ).loc main_arg4)) := funext fun i => by
  obtain ⟨r, k, rfl⟩ : ∃ (r : Fin 1000000) (k : Fin 64), i = ix2 r k := ⟨i 0, i 1, eq_ix2 i⟩
  exact V_glob_apply m c r k

end Host

/-! ## The blocks -/

section Blocks

variable (m : (ℓ : Loc nD τ sig) → Buf (Elt Ideal) ℓ) (ρ : Dev nD → PrngReg)

/-- Row `p` of point `t`'s block is row `2000·t + p` of the array. -/
def grow (t : Fin cfg0.N) (p : Fin 2000) : Fin 1000000 :=
  ⟨t.val * 2000 + p.val, by have := lt_of_lt_of_eq t.isLt N_0; omega⟩

/-- The printed index maps, decided over the 500 points: the four feature windows and the result window move down the
    rows with the point, the weight and bias windows stay on their one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_10.index t (0 : Fin 2) = t.val
    ∧ win0_10.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- Point `t`'s block of the bond features is rows `2000·t …` of the array. -/
theorem blk_bond (c : Dev nD) (t : Fin cfg0.N) (p : Fin 2000) (k : Fin 64) :
    iblk m c 0 t (ix2 p k) = (V m c main_arg0 : S1000000x64.Idx → EReal) (ix2 (grow t p) k) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_arg0 (((cfg0.win 0).blk t).view.emb (ix2 p k)) = V m c main_arg0 (ix2 (grow t p) k)
  refine congrArg (V m c main_arg0) (funext fun a => Fin.ext ?_)
  match a with
  | ⟨0, _⟩ => show win0_0.index t (0 : Fin 2) * 2000 + 1 * p.val = t.val * 2000 + p.val; rw [e0_0]; omega
  | ⟨1, _⟩ => show win0_0.index t (1 : Fin 2) * 64 + 1 * k.val = k.val; rw [e0_1]; omega

/-- Point `t`'s block of the first atoms' features. -/
theorem blk_atom0 (c : Dev nD) (t : Fin cfg0.N) (p : Fin 2000) (k : Fin 64) :
    iblk m c 1 t (ix2 p k) = (V m c main_v10 : S1000000x64.Idx → EReal) (ix2 (grow t p) k) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v10 (((cfg0.win 1).blk t).view.emb (ix2 p k)) = V m c main_v10 (ix2 (grow t p) k)
  refine congrArg (V m c main_v10) (funext fun a => Fin.ext ?_)
  match a with
  | ⟨0, _⟩ => show win0_1.index t (0 : Fin 2) * 2000 + 1 * p.val = t.val * 2000 + p.val; rw [e1_0]; omega
  | ⟨1, _⟩ => show win0_1.index t (1 : Fin 2) * 64 + 1 * k.val = k.val; rw [e1_1]; omega

/-- Point `t`'s block of the second atoms' features. -/
theorem blk_atom1 (c : Dev nD) (t : Fin cfg0.N) (p : Fin 2000) (k : Fin 64) :
    iblk m c 2 t (ix2 p k) = (V m c main_v17 : S1000000x64.Idx → EReal) (ix2 (grow t p) k) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v17 (((cfg0.win 2).blk t).view.emb (ix2 p k)) = V m c main_v17 (ix2 (grow t p) k)
  refine congrArg (V m c main_v17) (funext fun a => Fin.ext ?_)
  match a with
  | ⟨0, _⟩ => show win0_2.index t (0 : Fin 2) * 2000 + 1 * p.val = t.val * 2000 + p.val; rw [e2_0]; omega
  | ⟨1, _⟩ => show win0_2.index t (1 : Fin 2) * 64 + 1 * k.val = k.val; rw [e2_1]; omega

/-- Point `t`'s block of the global features. -/
theorem blk_glob (c : Dev nD) (t : Fin cfg0.N) (p : Fin 2000) (k : Fin 64) :
    iblk m c 3 t (ix2 p k) = (V m c main_v24 : S1000000x64.Idx → EReal) (ix2 (grow t p) k) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v24 (((cfg0.win 3).blk t).view.emb (ix2 p k)) = V m c main_v24 (ix2 (grow t p) k)
  refine congrArg (V m c main_v24) (funext fun a => Fin.ext ?_)
  match a with
  | ⟨0, _⟩ => show win0_3.index t (0 : Fin 2) * 2000 + 1 * p.val = t.val * 2000 + p.val; rw [e3_0]; omega
  | ⟨1, _⟩ => show win0_3.index t (1 : Fin 2) * 64 + 1 * k.val = k.val; rw [e3_1]; omega

/-- The W₁ window is the whole matrix at every point. -/
theorem blk_W1 (c : Dev nD) (t : Fin cfg0.N) (k : Fin 256) (j : Fin 64) :
    iblk m c 4 t (ix2 k j) = (V m c main_arg5 : S256x64.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_arg5 (((cfg0.win 4).blk t).view.emb (ix2 k j)) = V m c main_arg5 (ix2 k j)
  refine congrArg (V m c main_arg5) (funext fun a => Fin.ext ?_)
  match a with
  | ⟨0, _⟩ => show win0_4.index t (0 : Fin 2) * 256 + 1 * k.val = k.val; rw [e4_0]; omega
  | ⟨1, _⟩ => show win0_4.index t (1 : Fin 2) * 64 + 1 * j.val = j.val; rw [e4_1]; omega

/-- The first bias window is the whole row at every point. -/
theorem blk_b1 (c : Dev nD) (t : Fin cfg0.N) (k : Fin 1) (j : Fin 64) :
    iblk m c 5 t (ix2 k j) = (V m c main_v25 : S1x64.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v25 (((cfg0.win 5).blk t).view.emb (ix2 k j)) = V m c main_v25 (ix2 k j)
  refine congrArg (V m c main_v25) (funext fun a => Fin.ext ?_)
  match a with
  | ⟨0, _⟩ => show win0_5.index t (0 : Fin 2) * 1 + 1 * k.val = k.val; rw [e5_0]; omega
  | ⟨1, _⟩ => show win0_5.index t (1 : Fin 2) * 64 + 1 * j.val = j.val; rw [e5_1]; omega

/-- The W₂ window is the whole matrix at every point. -/
theorem blk_W2 (c : Dev nD) (t : Fin cfg0.N) (k : Fin 64) (j : Fin 64) :
    iblk m c 6 t (ix2 k j) = (V m c main_arg7 : S64x64.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_arg7 (((cfg0.win 6).blk t).view.emb (ix2 k j)) = V m c main_arg7 (ix2 k j)
  refine congrArg (V m c main_arg7) (funext fun a => Fin.ext ?_)
  match a with
  | ⟨0, _⟩ => show win0_6.index t (0 : Fin 2) * 64 + 1 * k.val = k.val; rw [e6_0]; omega
  | ⟨1, _⟩ => show win0_6.index t (1 : Fin 2) * 64 + 1 * j.val = j.val; rw [e6_1]; omega

/-- The second bias window is the whole row at every point. -/
theorem blk_b2 (c : Dev nD) (t : Fin cfg0.N) (k : Fin 1) (j : Fin 64) :
    iblk m c 7 t (ix2 k j) = (V m c main_v26 : S1x64.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v26 (((cfg0.win 7).blk t).view.emb (ix2 k j)) = V m c main_v26 (ix2 k j)
  refine congrArg (V m c main_v26) (funext fun a => Fin.ext ?_)
  match a with
  | ⟨0, _⟩ => show win0_7.index t (0 : Fin 2) * 1 + 1 * k.val = k.val; rw [e7_0]; omega
  | ⟨1, _⟩ => show win0_7.index t (1 : Fin 2) * 64 + 1 * j.val = j.val; rw [e7_1]; omega

/-- The W₃ window is the whole matrix at every point. -/
theorem blk_W3 (c : Dev nD) (t : Fin cfg0.N) (k : Fin 64) (j : Fin 32) :
    iblk m c 8 t (ix2 k j) = (V m c main_arg9 : S64x32.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_arg9 (((cfg0.win 8).blk t).view.emb (ix2 k j)) = V m c main_arg9 (ix2 k j)
  refine congrArg (V m c main_arg9) (funext fun a => Fin.ext ?_)
  match a with
  | ⟨0, _⟩ => show win0_8.index t (0 : Fin 2) * 64 + 1 * k.val = k.val; rw [e8_0]; omega
  | ⟨1, _⟩ => show win0_8.index t (1 : Fin 2) * 32 + 1 * j.val = j.val; rw [e8_1]; omega

/-- The third bias window is the whole row at every point. -/
theorem blk_b3 (c : Dev nD) (t : Fin cfg0.N) (k : Fin 1) (j : Fin 32) :
    iblk m c 9 t (ix2 k j) = (V m c main_v27 : S1x32.Idx → EReal) (ix2 k j) := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  show V m c main_v27 (((cfg0.win 9).blk t).view.emb (ix2 k j)) = V m c main_v27 (ix2 k j)
  refine congrArg (V m c main_v27) (funext fun a => Fin.ext ?_)
  match a with
  | ⟨0, _⟩ => show win0_9.index t (0 : Fin 2) * 1 + 1 * k.val = k.val; rw [e9_0]; omega
  | ⟨1, _⟩ => show win0_9.index t (1 : Fin 2) * 32 + 1 * j.val = j.val; rw [e9_1]; omega

/-- The specification's result of the arguments as launched. -/
def R (c : Dev nD) : S1000000x32.Idx → EReal :=
  Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What the body leaves at point `t`, at `(p, q)` of the block, is the result at row `2000·t + p`, column `q`. -/
theorem block_apply (c : Dev nD) (t : Fin cfg0.N) (p : Fin 2000) (q : Fin 32) :
    out0_10 (iblk m c 0 t) (iblk m c 1 t) (iblk m c 2 t) (iblk m c 3 t) (iblk m c 4 t) (iblk m c 5 t) (iblk m c 6 t)
        (iblk m c 7 t) (iblk m c 8 t) (iblk m c 9 t) (ix2 p q)
      = R m c (ix2 (grow t p) q) := by
  rw [out_apply]
  show _ = Cert.Spec.rowOut (fun k => (m ((c : Thread nD τ).loc main_arg0)) (ix2 (grow t p) k))
    (fun k => Cert.Spec.atomRows (m ((c : Thread nD τ).loc main_arg1)) (m ((c : Thread nD τ).loc main_arg3)) 0 (ix2 (grow t p) k))
    (fun k => Cert.Spec.atomRows (m ((c : Thread nD τ).loc main_arg1)) (m ((c : Thread nD τ).loc main_arg3)) 1 (ix2 (grow t p) k))
    (fun k => Cert.Spec.globRows (m ((c : Thread nD τ).loc main_arg2)) (m ((c : Thread nD τ).loc main_arg4)) (ix2 (grow t p) k))
    (fun k j => (m ((c : Thread nD τ).loc main_arg5)) (ix2 k j)) (fun j => (m ((c : Thread nD τ).loc main_arg6)) (ix1 j))
    (fun k j => (m ((c : Thread nD τ).loc main_arg7)) (ix2 k j)) (fun j => (m ((c : Thread nD τ).loc main_arg8)) (ix1 j))
    (fun k j => (m ((c : Thread nD τ).loc main_arg9)) (ix2 k j)) (fun j => (m ((c : Thread nD τ).loc main_arg10)) (ix1 j)) q
  simp only [blk_bond, blk_atom0, blk_atom1, blk_glob, blk_W1, blk_b1, blk_W2, blk_b2, blk_W3, blk_b3]
  rw [V_main_arg0 m c, V_main_arg5 m c, V_main_arg7 m c, V_main_arg9 m c, V_atom0_eq m c, V_atom1_eq m c, V_glob_eq m c,
    V_b1 m c, V_b2 m c, V_b3 m c]
  simp only [row64_apply, row32_apply]

/-- The block's element `(p, q)` sits at row `2000·t + p`, column `q` of the result array. -/
theorem emb_out (t : Fin cfg0.N) (p : Fin 2000) (q : Fin 32) :
    (((cfg0.win 10).blk t).view.emb (ix2 p q) : S1000000x32.Idx) = ix2 (grow t p) q := by
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts t
  refine funext fun a => Fin.ext ?_
  match a with
  | ⟨0, _⟩ => show win0_10.index t (0 : Fin 2) * 2000 + 1 * p.val = t.val * 2000 + p.val; rw [e10_0]; omega
  | ⟨1, _⟩ => show win0_10.index t (1 : Fin 2) * 32 + 1 * q.val = q.val; rw [e10_1]; omega

/-- WHAT POINT `t` WRITES BACK is block `t` of the result. -/
theorem flushed_eq (c : Dev nD) (t : Fin cfg0.N) :
    (dats m 0 c).flushed 10 t = ((cfg0.win 10).blk t).view.read (Elt Ideal) (R m c) := by
  rw [Value.flushed10]
  funext y
  obtain ⟨p, q, rfl⟩ : ∃ (p : Fin 2000) (q : Fin 32), y = ix2 p q := ⟨y 0, y 1, eq_ix2 y⟩
  show out0_10 (iblk m c 0 t) (iblk m c 1 t) (iblk m c 2 t) (iblk m c 3 t) (iblk m c 4 t) (iblk m c 5 t) (iblk m c 6 t)
      (iblk m c 7 t) (iblk m c 8 t) (iblk m c 9 t) (ix2 p q) = R m c (((cfg0.win 10).blk t).view.emb (ix2 p q))
  exact (block_apply m c t p q).trans (congrArg (R m c) (emb_out t p q).symm)

/-- An index of the result array is in point `t`'s block iff each coordinate is in the block's range on its axis. -/
theorem mem_blk (t : Fin cfg0.N) (i : S1000000x32.Idx) :
    i ∈ ((cfg0.win 10).blk t).view.set ↔ ∀ a : Fin 2, win0_10.index t a * S2000x32.size a ≤ (i a).val
      ∧ (i a).val < win0_10.index t a * S2000x32.size a + S2000x32.size a := by
  show i ∈ ((View.whole main_v28).slice (win0_10.rect t)).set ↔ _
  rw [View.set_slice_whole, Rect.mem_set_unit]
  exact Iff.rfl

/-- The 500 blocks cover the array: row `r` is in the block of point `r / 2000`. -/
theorem cover (i : S1000000x32.Idx) :
    ∃ t : Fin cfg0.N, (cfg0.win 10).flush t = true ∧ i ∈ ((cfg0.win 10).blk t).view.set := by
  have hi0 : (i 0).val < 1000000 := (i 0).isLt
  have hi1 : (i 1).val < 32 := (i 1).isLt
  have hN : cfg0.N = 500 := N_0
  have ht : (i 0).val / 2000 < cfg0.N := by rw [hN]; omega
  obtain ⟨e0_0, e0_1, e1_0, e1_1, e2_0, e2_1, e3_0, e3_1, e10_0, e10_1, e4_0, e4_1, e5_0, e5_1, e6_0, e6_1, e7_0, e7_1, e8_0, e8_1, e9_0, e9_1⟩ := idx_facts ⟨(i 0).val / 2000, ht⟩
  refine ⟨⟨(i 0).val / 2000, ht⟩, flush0_10 _, ?_⟩
  rw [mem_blk]
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    rw [e10_0]; show (i 0).val / 2000 * 2000 ≤ (i 0).val ∧ (i 0).val < (i 0).val / 2000 * 2000 + 2000; omega
  | ⟨1, _⟩ =>
    show win0_10.index ⟨(i 0).val / 2000, ht⟩ (1 : Fin 2) * 32 ≤ (i 1).val
      ∧ (i 1).val < win0_10.index ⟨(i 0).val / 2000, ht⟩ (1 : Fin 2) * 32 + 32
    rw [e10_1]; omega

/-- THE ARRAY after the run is the result. -/
theorem final (c : Dev nD) : (dats m 0 c).arrAt 10 cfg0.N = R m c :=
  (dats m 0 c).arrAt_eq_of_cover 10 (R m c) (fun t _ => flushed_eq m c t) cover

/-- The kernel's run: the result array at the specification's result of the arguments, the arguments unchanged. -/
theorem run : θ_run defs (onTc (τ := τ) (main (F := Ideal))) ⟨m, fun _ => 0, ρ⟩ fun r => ∀ c : Dev nD,
      r.2.mem ((c : Thread nD τ).loc main_v28) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Blocks

end Cert.KernelIdeal.KValue

end
-- ==== Proof.LibGatherPairs.lean ====
/-
  A row gather with several indices per result row, read at an index.

  `table[idx]` for a table `[N, C]` and an integer array `idx : [R, P]` lowers to `stablehlo.gather` with one collapsed
  operand axis (the rows), whole rows as slices (`slice_sizes = [1, C]`), the start indices carried as `[R, P, 1]` (a
  trailing index-vector axis of extent one) and the result `[R, P, C]`, whose last axis is the one offset axis. Result
  element `(r, s, k)` is the table's element in column `k` of the row whose number is the start index `idx[r, s, 0]`
  read as a signed integer and clamped into `[0, N - 1]` (StableHLO clamps every start index so that the slice fits;
  here the slice is one row, so the clamp is to the last row).

  The operand index of a gather is, on each operand axis, a clamped start plus a batching coordinate plus an offset
  coordinate. On the row axis there is no batching and no offset (the axis is collapsed), so only the clamped start
  remains, read at the result's two batch coordinates `(r, s)` with `0` on the index-vector axis; on the column axis the
  start index map does not name the axis and nothing batches, so only the offset coordinate `k` remains.
-/
import Idealize.ShloMosaic.PureOps.Ideal
import Idealize.ShloMosaic.Lib.ValueIdx

noncomputable section

namespace Cert.LibGatherPairs

open Idealize.ShloMosaic Idealize.ShloMosaic.ValueIdx

variable {α : Type}

/-- The dimension numbers of `table[idx]` for a table `[N, C]`, start indices `[R, P, 1]` and result `[R, P, C]`. -/
abbrev pairDims (N C R P : Nat)
    (wf : GatherDims.WF ⟨2, ![N, C]⟩ ⟨3, ![R, P, 1]⟩ ⟨3, ![R, P, C]⟩ [2] [0] [] [0] [] 2 ![1, C]) :
    GatherDims ⟨2, ![N, C]⟩ ⟨3, ![R, P, 1]⟩ ⟨3, ![R, P, C]⟩ where
  offsetDims := [2]
  collapsedSliceDims := [0]
  operandBatchingDims := []
  startIndicesBatchingDims := []
  startIndexMap := [0]
  indexVectorDim := 2
  sliceSizes := ![1, C]
  wf := wf

/-- THE GATHER READ AT `(r, s, k)`: column `k` of the table's row at the start index `idx[r, s, 0]`, read signed and
    clamped into `[0, N - 1]`. -/
theorem gather_pairs_apply {N C R P w : Nat} (hN : 0 < N)
    (wf : GatherDims.WF ⟨2, ![N, C]⟩ ⟨3, ![R, P, 1]⟩ ⟨3, ![R, P, C]⟩ [2] [0] [] [0] [] 2 ![1, C])
    (x : (⟨2, ![N, C]⟩ : Shape).Idx → α) (idx : IVec ⟨3, ![R, P, 1]⟩ w) (r : Fin R) (s : Fin P) (k : Fin C) :
    Host.gather (pairDims N C R P wf) x idx (ix3 r s k)
      = x (ix2 (⟨min (idx (ix3 r s (0 : Fin 1))).toInt.toNat (N - 1), by omega⟩ : Fin N) k) := by
  unfold Host.gather
  congr 1
  funext a
  refine Fin.ext ?_
  match a with
  | ⟨0, _⟩ =>
    -- the row axis: collapsed, so no offset; not batching; the start index map names it
    show (pairDims N C R P wf).start (ix3 r s k) idx 0 + (pairDims N C R P wf).batchCoord (ix3 r s k) 0
        + (pairDims N C R P wf).offCoord (ix3 r s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairDims N C R P wf).startIndexMap from List.mem_singleton.mpr rfl)]
    -- the start index is read at the result's batch coordinates, with 0 on the index-vector axis
    have hsi : (pairDims N C R P wf).siIdx (ix3 r s k) ⟨List.idxOf (0 : Fin 2) (pairDims N C R P wf).startIndexMap,
        List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: not in the start index map, not batching; the one kept axis, read by the offset axis
    show (pairDims N C R P wf).start (ix3 r s k) idx 1 + (pairDims N C R P wf).batchCoord (ix3 r s k) 1
        + (pairDims N C R P wf).offCoord (ix3 r s k) 1 = k.val
    rw [GatherDims.batchCoord_eq_zero _ _ _ List.not_mem_nil]
    unfold GatherDims.start
    rw [dif_neg (show ¬ (1 : Fin 2) ∈ (pairDims N C R P wf).startIndexMap from
      fun h => absurd (List.mem_singleton.mp h) (show (1 : Fin 2) ≠ 0 by decide))]
    unfold GatherDims.offCoord
    rw [dif_pos (show (1 : Fin 2) ∈ (pairDims N C R P wf).sKept from
      (GatherDims.mem_sKept _ _).mpr ⟨fun h => absurd (List.mem_singleton.mp h) (show (1 : Fin 2) ≠ 0 by decide), List.not_mem_nil⟩)]
    simp only [Nat.zero_add, Nat.add_zero]
    rfl

end Cert.LibGatherPairs

end
-- ==== Proof.RefValue.lean ====
/-
  The reference program, stage by stage, is the specification's result.

  The reference looks up, for every bond `r`, the feature rows of its two atoms and of its global node, lays the bond's
  own 64 features, the two atom rows and the global row side by side as one 256-wide row, and runs three dense layers
  over it with softplus after the first two. Every stage is read here at one index:

  * an index word is first wrapped (a negative index has the table's length added) and the row gather then clamps it
    into the table, which is the specification's `rowAt` of `wrapIdx`;
  * the atom gather produces `[bond, which atom, feature]`; flattening the last two axes puts feature `k` of atom `s` in
    column `64·s + k`, because `(128·r + 64·s + k) / 128 = r`, `(128·r + 64·s + k) / 64 mod 2 = s` and
    `(128·r + 64·s + k) mod 64 = k`;
  * column `c` of the concatenated row comes from the piece whose span holds `c`: `[0, 64)` the bond's features,
    `[64, 192)` the flattened atom rows (so `[64, 128)` the first atom and `[128, 192)` the second), `[192, 256)` the
    global row;
  * the first layer's one contraction over 256 columns is therefore the sum of four contractions over 64 columns, each
    against the matching 64-row slice of the first weight matrix (a finite sum split into consecutive stretches);
  * the activation the program spells out (a self-comparison guard that never fires on the extended reals, `x - 0`,
    `x + 0`, `-|x - 0|`) is `max(x, 0) + log(1 + exp(-|x|))`;
  * the second and third layers are plain 64-term contractions plus a bias row broadcast over the bonds.
-/
import proofs.«167409_j18373870092600_1_alg».proof.Proof.Gen.ReferenceIdeal.Read
import proofs.«167409_j18373870092600_1_alg».proof.Proof.Spec
import proofs.«167409_j18373870092600_1_alg».proof.Proof.LibGatherRows
import proofs.«167409_j18373870092600_1_alg».proof.Proof.LibGatherPairs
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe

section Stages

variable (x0 : (⟨S1000000x64, .f32⟩ : BufTy).Contents (Elt Ideal)) (x1 : (⟨S800000x64, .f32⟩ : BufTy).Contents (Elt Ideal))
  (x2 : (⟨S50000x64, .f32⟩ : BufTy).Contents (Elt Ideal)) (x3 : (⟨S1000000x2, .i32⟩ : BufTy).Contents (Elt Ideal))
  (x4 : (⟨S1000000, .i32⟩ : BufTy).Contents (Elt Ideal)) (x5 : (⟨S256x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x32, .f32⟩ : BufTy).Contents (Elt Ideal))
  (x10 : (⟨S32, .f32⟩ : BufTy).Contents (Elt Ideal))

/-! ## The index words: a negative index has the table's length added -/

/-- The atom index of bond `r`, atom `s`, as the atom gather reads it: wrapped by the atom table's length. -/
theorem v5_at (r : Fin 1000000) (s : Fin 2) :
    val_main_v5 (F := Ideal) x3 (ix3 r s (0 : Fin 1)) = Cert.Spec.wrapIdx 800000#32 (x3 (ix2 r s)) := by
  have h : idx_main_v5 (ix3 r s (0 : Fin 1)) = ix2 r s := by
    funext a; match a with | ⟨0, _⟩ => rfl | ⟨1, _⟩ => rfl
  rw [val_main_v5_apply, h, val_main_v4_apply, val_main_v1_apply, val_main_v3_apply, val_main_v0_apply, val_main_v2_apply,
    val_main_c_apply, val_main_c_0_apply]
  rfl

/-- The global index of bond `r` as the global gather reads it: wrapped by the global table's length. -/
theorem v13_at (r : Fin 1000000) :
    val_main_v13 (F := Ideal) x4 (ix2 r (0 : Fin 1)) = Cert.Spec.wrapIdx 50000#32 (x4 (ix1 r)) := by
  have h : idx_main_v13 (ix2 r (0 : Fin 1)) = ix1 r := by
    funext a; match a with | ⟨0, _⟩ => rfl
  rw [val_main_v13_apply, h, val_main_v12_apply, val_main_v9_apply, val_main_v11_apply, val_main_v8_apply, val_main_v10_apply,
    val_main_c_1_apply, val_main_c_2_apply]
  rfl

/-! ## The two gathers -/

/-- Feature `k` of atom `s` of bond `r`: the atom table's row at the wrapped, clamped index. -/
theorem v6_at (r : Fin 1000000) (s : Fin 2) (k : Fin 64) :
    val_main_v6 (F := Ideal) x1 x3 (ix3 r s k) = Cert.Spec.atomRows x1 x3 s (ix2 r k) := by
  unfold val_main_v6
  refine (Cert.LibGatherPairs.gather_pairs_apply (N := 800000) (C := 64) (R := 1000000) (P := 2) (by decide)
    Facts₀.gather_S800000x64_S1000000x2x1_S1000000x2x64_2_0_n_n_0_2_164_wf x1 (val_main_v5 (F := Ideal) x3) r s k).trans ?_
  exact congrArg (fun v => x1 (ix2 (Cert.Spec.rowAt 800000 (by decide) v) k)) (v5_at x3 r s)

/-- Feature `k` of the global node of bond `r`: the global table's row at the wrapped, clamped index. -/
theorem v14_at (r : Fin 1000000) (k : Fin 64) :
    val_main_v14 (F := Ideal) x2 x4 (ix2 r k) = Cert.Spec.globRows x2 x4 (ix2 r k) := by
  unfold val_main_v14
  refine (Cert.LibGatherRows.gather_rows_apply (N := 50000) (C := 64) (R := 1000000) (by decide)
    Facts₀.gather_S50000x64_S1000000x1_S1000000x64_1_0_n_n_0_1_164_wf x2 (val_main_v13 (F := Ideal) x4) r k).trans ?_
  exact congrArg (fun v => x2 (ix2 (Cert.Spec.rowAt 50000 (by decide) v) k)) (v13_at x4 r)

/-! ## The two atom rows side by side: column `64·s + k` is feature `k` of atom `s` -/

theorem v7_lo (r : Fin 1000000) (k : Fin 64) :
    val_main_v7 (F := Ideal) x1 x3 (ix2 r (⟨k.val, by omega⟩ : Fin 128)) = Cert.Spec.atomRows x1 x3 0 (ix2 r k) := by
  have h : idx_main_v7 (ix2 r (⟨k.val, by omega⟩ : Fin 128)) = ix3 r (0 : Fin 2) k := by
    funext a; refine Fin.ext ?_
    have hr := r.isLt; have hk := k.isLt
    match a with
    | ⟨0, _⟩ => show (r.val * 128 + k.val) / 128 = r.val; omega
    | ⟨1, _⟩ => show (r.val * 128 + k.val) / 64 % 2 = 0; omega
    | ⟨2, _⟩ => show (r.val * 128 + k.val) % 64 = k.val; omega
  rw [val_main_v7_apply, h, v6_at]

theorem v7_hi (r : Fin 1000000) (k : Fin 64) :
    val_main_v7 (F := Ideal) x1 x3 (ix2 r (⟨64 + k.val, by omega⟩ : Fin 128)) = Cert.Spec.atomRows x1 x3 1 (ix2 r k) := by
  have h : idx_main_v7 (ix2 r (⟨64 + k.val, by omega⟩ : Fin 128)) = ix3 r (1 : Fin 2) k := by
    funext a; refine Fin.ext ?_
    have hr := r.isLt; have hk := k.isLt
    match a with
    | ⟨0, _⟩ => show (r.val * 128 + (64 + k.val)) / 128 = r.val; omega
    | ⟨1, _⟩ => show (r.val * 128 + (64 + k.val)) / 64 % 2 = 1; omega
    | ⟨2, _⟩ => show (r.val * 128 + (64 + k.val)) % 64 = k.val; omega
  rw [val_main_v7_apply, h, v6_at]

/-! ## The concatenated row, column by column -/

theorem v15_bond (r : Fin 1000000) (k : Fin 64) :
    val_main_v15 (F := Ideal) x0 x1 x2 x3 x4 (ix2 r (Cert.Spec.sliceRow 0 (by omega) k)) = x0 (ix2 r k) := by
  unfold val_main_v15
  exact concatenate_apply_piece (1 : Fin 2) _ _ (ix2 r (Cert.Spec.sliceRow 0 (by omega) k)) 0 (by exact (by decide : (0 : Nat) < 3)) S1000000x64 x0 rfl rfl 0 rfl
    (ix2 r k) (fun b => match b with | ⟨0, _⟩ => fun _ => rfl | ⟨1, _⟩ => fun h => absurd rfl h) rfl

theorem v15_atom0 (r : Fin 1000000) (k : Fin 64) :
    val_main_v15 (F := Ideal) x0 x1 x2 x3 x4 (ix2 r (Cert.Spec.sliceRow 64 (by omega) k)) = Cert.Spec.atomRows x1 x3 0 (ix2 r k) := by
  unfold val_main_v15
  refine (concatenate_apply_piece (1 : Fin 2) _ _ (ix2 r (Cert.Spec.sliceRow 64 (by omega) k)) 1 (by exact (by decide : (1 : Nat) < 3)) S1000000x128
    (val_main_v7 (F := Ideal) x1 x3) rfl rfl 64 rfl
    (ix2 r (⟨k.val, by omega⟩ : Fin 128)) (fun b => match b with | ⟨0, _⟩ => fun _ => rfl | ⟨1, _⟩ => fun h => absurd rfl h) rfl).trans ?_
  exact v7_lo x1 x3 r k

theorem v15_atom1 (r : Fin 1000000) (k : Fin 64) :
    val_main_v15 (F := Ideal) x0 x1 x2 x3 x4 (ix2 r (Cert.Spec.sliceRow 128 (by omega) k)) = Cert.Spec.atomRows x1 x3 1 (ix2 r k) := by
  unfold val_main_v15
  refine (concatenate_apply_piece (1 : Fin 2) _ _ (ix2 r (Cert.Spec.sliceRow 128 (by omega) k)) 1 (by exact (by decide : (1 : Nat) < 3)) S1000000x128
    (val_main_v7 (F := Ideal) x1 x3) rfl rfl 64 rfl
    (ix2 r (⟨64 + k.val, by omega⟩ : Fin 128)) (fun b => match b with | ⟨0, _⟩ => fun _ => rfl | ⟨1, _⟩ => fun h => absurd rfl h)
    (by show 64 + (64 + k.val) = 128 + k.val; omega)).trans ?_
  exact v7_hi x1 x3 r k

theorem v15_glob (r : Fin 1000000) (k : Fin 64) :
    val_main_v15 (F := Ideal) x0 x1 x2 x3 x4 (ix2 r (Cert.Spec.sliceRow 192 (by omega) k)) = Cert.Spec.globRows x2 x4 (ix2 r k) := by
  unfold val_main_v15
  refine (concatenate_apply_piece (1 : Fin 2) _ _ (ix2 r (Cert.Spec.sliceRow 192 (by omega) k)) 2 (by exact (by decide : (2 : Nat) < 3)) S1000000x64
    (val_main_v14 (F := Ideal) x2 x4) rfl rfl 192 rfl
    (ix2 r k) (fun b => match b with | ⟨0, _⟩ => fun _ => rfl | ⟨1, _⟩ => fun h => absurd rfl h) rfl).trans ?_
  exact v14_at x2 x4 r k

/-! ## The activation: the program's spelling is softplus -/

/-- The activation as the program spells it, on one extended real. -/
theorem softplus_spelt (y : Ideal .f32) :
    Scalar.select
        (FloatOps.cmpf .une (FloatOps.subf y (FloatOps.ofBits .f32 0x00000000#32)) (FloatOps.subf y (FloatOps.ofBits .f32 0x00000000#32)))
        (FloatOps.addf y (FloatOps.ofBits .f32 0x00000000#32))
        (FloatOps.addf (FloatOps.maximumf y (FloatOps.ofBits .f32 0x00000000#32))
          (FloatOps.hostUnary .log1p (FloatOps.hostUnary .exp (FloatOps.hostNegf (FloatOps.hostAbsf
            (FloatOps.subf y (FloatOps.ofBits .f32 0x00000000#32)))))))
      = Cert.Spec.softplus y := by
  simp only [Ideal.cmpf_def, Ideal.subf_def, Ideal.addf_def, Ideal.maximumf_def, Ideal.hostUnary_log1p_def, Ideal.hostUnary_exp_def,
    Ideal.hostNegf_def, Ideal.negf_def, Ideal.hostAbsf_def, Ideal.absf_def, Ideal.ofBits_def, Ideal.ofBits_zero_f32]
  exact Cert.Spec.softplus_of_neg y

/-- The first activation, element by element. -/
theorem v20_eq (i : S1000000x64.Idx) :
    val_main_v20 (F := Ideal) x0 x1 x2 x3 x4 x5 x6 i = Cert.Spec.softplus (val_main_v19 (F := Ideal) x0 x1 x2 x3 x4 x5 x6 i) := by
  rw [val_main_v20_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  exact softplus_spelt _

/-- The second activation, element by element. -/
theorem v25_eq (i : S1000000x64.Idx) :
    val_main_v25 (F := Ideal) x0 x1 x2 x3 x4 x5 x6 x7 x8 i
      = Cert.Spec.softplus (val_main_v24 (F := Ideal) x0 x1 x2 x3 x4 x5 x6 x7 x8 i) := by
  rw [val_main_v25_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply]
  exact softplus_spelt _

/-! ## The three layers -/

/-- The first layer before its activation: the 256-term contraction as the four 64-term ones, plus the bias. -/
theorem v19_at (r : Fin 1000000) (j : Fin 64) :
    val_main_v19 (F := Ideal) x0 x1 x2 x3 x4 x5 x6 (ix2 r j)
      = Cert.Spec.pre1 (fun k => x0 (ix2 r k)) (fun k => Cert.Spec.atomRows x1 x3 0 (ix2 r k))
          (fun k => Cert.Spec.atomRows x1 x3 1 (ix2 r k)) (fun k => Cert.Spec.globRows x2 x4 (ix2 r k))
          (fun k j => x5 (ix2 k j)) (fun j => x6 (ix1 j)) j := by
  have hl : ∀ c : Fin 256, lidx_main_v16 (ix2 r j) c = ix2 r c := fun c => by
    funext a; match a with | ⟨0, _⟩ => rfl | ⟨1, _⟩ => rfl
  have hr : ∀ c : Fin 256, ridx_main_v16 (ix2 r j) c = ix2 c j := fun c => by
    funext a; match a with | ⟨0, _⟩ => rfl | ⟨1, _⟩ => rfl
  have hb : idx_main_v17 (idx_main_v18 (ix2 r j)) = ix1 j := by
    funext a; match a with | ⟨0, _⟩ => rfl
  have hsum : val_main_v16 (F := Ideal) x0 x1 x2 x3 x4 x5 (ix2 r j)
      = ∑ c : Fin 256, val_main_v15 (F := Ideal) x0 x1 x2 x3 x4 (ix2 r c) * x5 (ix2 c j) := by
    rw [val_main_v16_apply]
    exact Finset.sum_congr rfl fun c _ => by rw [hl c, hr c]
  rw [val_main_v19_apply, val_main_v18_apply, val_main_v17_apply, hb, hsum, Ideal.addf_def]
  unfold Cert.Spec.pre1
  refine congrArg (· + x6 (ix1 j)) ?_
  refine (Cert.Spec.sum_split4 (fun c : Fin 256 => val_main_v15 (F := Ideal) x0 x1 x2 x3 x4 (ix2 r c) * x5 (ix2 c j))).trans ?_
  refine congrArg₂ (· + ·) (congrArg₂ (· + ·) (congrArg₂ (· + ·) ?_ ?_) ?_) ?_
  · exact Finset.sum_congr rfl fun k _ => congrArg (· * x5 (ix2 (Cert.Spec.sliceRow 0 (by omega) k) j)) (v15_bond x0 x1 x2 x3 x4 r k)
  · exact Finset.sum_congr rfl fun k _ => congrArg (· * x5 (ix2 (Cert.Spec.sliceRow 64 (by omega) k) j)) (v15_atom0 x0 x1 x2 x3 x4 r k)
  · exact Finset.sum_congr rfl fun k _ => congrArg (· * x5 (ix2 (Cert.Spec.sliceRow 128 (by omega) k) j)) (v15_atom1 x0 x1 x2 x3 x4 r k)
  · exact Finset.sum_congr rfl fun k _ => congrArg (· * x5 (ix2 (Cert.Spec.sliceRow 192 (by omega) k) j)) (v15_glob x0 x1 x2 x3 x4 r k)

/-- The second layer before its activation. -/
theorem v24_at (r : Fin 1000000) (j : Fin 64) :
    val_main_v24 (F := Ideal) x0 x1 x2 x3 x4 x5 x6 x7 x8 (ix2 r j)
      = Cert.Spec.dense (fun k => val_main_v20 (F := Ideal) x0 x1 x2 x3 x4 x5 x6 (ix2 r k)) (fun k j => x7 (ix2 k j))
          (fun j => x8 (ix1 j)) j := by
  have hl : ∀ c : Fin 64, lidx_main_v21 (ix2 r j) c = ix2 r c := fun c => by
    funext a; match a with | ⟨0, _⟩ => rfl | ⟨1, _⟩ => rfl
  have hr : ∀ c : Fin 64, ridx_main_v21 (ix2 r j) c = ix2 c j := fun c => by
    funext a; match a with | ⟨0, _⟩ => rfl | ⟨1, _⟩ => rfl
  have hb : idx_main_v22 (idx_main_v23 (ix2 r j)) = ix1 j := by
    funext a; match a with | ⟨0, _⟩ => rfl
  rw [val_main_v24_apply, val_main_v23_apply, val_main_v22_apply, hb, val_main_v21_apply, Ideal.addf_def]
  unfold Cert.Spec.dense
  refine congrArg (· + x8 (ix1 j)) ?_
  exact Finset.sum_congr rfl fun c _ => by rw [hl c, hr c]

/-- The third layer. -/
theorem v29_at (r : Fin 1000000) (q : Fin 32) :
    val_main_v29 (F := Ideal) x0 x1 x2 x3 x4 x5 x6 x7 x8 x9 x10 (ix2 r q)
      = Cert.Spec.dense (fun k => val_main_v25 (F := Ideal) x0 x1 x2 x3 x4 x5 x6 x7 x8 (ix2 r k)) (fun k j => x9 (ix2 k j))
          (fun j => x10 (ix1 j)) q := by
  have hl : ∀ c : Fin 64, lidx_main_v26 (ix2 r q) c = ix2 r c := fun c => by
    funext a; match a with | ⟨0, _⟩ => rfl | ⟨1, _⟩ => rfl
  have hr : ∀ c : Fin 64, ridx_main_v26 (ix2 r q) c = ix2 c q := fun c => by
    funext a; match a with | ⟨0, _⟩ => rfl | ⟨1, _⟩ => rfl
  have hb : idx_main_v27 (idx_main_v28 (ix2 r q)) = ix1 q := by
    funext a; match a with | ⟨0, _⟩ => rfl
  rw [val_main_v29_apply, val_main_v28_apply, val_main_v27_apply, hb, val_main_v26_apply, Ideal.addf_def]
  unfold Cert.Spec.dense
  refine congrArg (· + x10 (ix1 q)) ?_
  exact Finset.sum_congr rfl fun c _ => by rw [hl c, hr c]

end Stages

/-- The reference's last stage is the specification's result, as functions of the eleven arguments. -/
theorem val_eq_result (x0 : (⟨S1000000x64, .f32⟩ : BufTy).Contents (Elt Ideal)) (x1 : (⟨S800000x64, .f32⟩ : BufTy).Contents (Elt Ideal))
    (x2 : (⟨S50000x64, .f32⟩ : BufTy).Contents (Elt Ideal)) (x3 : (⟨S1000000x2, .i32⟩ : BufTy).Contents (Elt Ideal))
    (x4 : (⟨S1000000, .i32⟩ : BufTy).Contents (Elt Ideal)) (x5 : (⟨S256x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x32, .f32⟩ : BufTy).Contents (Elt Ideal))
    (x10 : (⟨S32, .f32⟩ : BufTy).Contents (Elt Ideal)) :
    val_main_v29 (F := Ideal) x0 x1 x2 x3 x4 x5 x6 x7 x8 x9 x10
      = Cert.Spec.result x0 x1 x2 x3 x4 x5 x6 x7 x8 x9 x10 := by
  funext i
  obtain ⟨r, q, rfl⟩ : ∃ (r : Fin 1000000) (q : Fin 32), i = ix2 r q := ⟨i 0, i 1, eq_ix2 i⟩
  rw [v29_at]
  show _ = Cert.Spec.rowOut (fun k => x0 (ix2 r k)) (fun k => Cert.Spec.atomRows x1 x3 0 (ix2 r k))
    (fun k => Cert.Spec.atomRows x1 x3 1 (ix2 r k)) (fun k => Cert.Spec.globRows x2 x4 (ix2 r k)) (fun k j => x5 (ix2 k j))
    (fun j => x6 (ix1 j)) (fun k j => x7 (ix2 k j)) (fun j => x8 (ix1 j)) (fun k j => x9 (ix2 k j)) (fun j => x10 (ix1 j)) q
  unfold Cert.Spec.rowOut
  refine congrArg (fun f => Cert.Spec.dense f (fun k j => x9 (ix2 k j)) (fun j => x10 (ix1 j)) q) (funext fun k => ?_)
  rw [v25_eq, v24_at]
  refine congrArg (fun f => Cert.Spec.softplus (Cert.Spec.dense f (fun k j => x7 (ix2 k j)) (fun j => x8 (ix1 j)) k))
    (funext fun k' => ?_)
  rw [v20_eq, v19_at]

end Cert.ReferenceIdeal.RefValue

end
-- ==== Proof.lean ====
/-
  A bond-update layer of a message-passing network: for each of 1 000 000 bonds, the bond's 64 features, the 64 features
  of each of its two atoms and the 64 features of its global node (rows of an 800 000-row and a 50 000-row table, looked
  up by integer indices) go through three dense layers, 256 → 64 → 64 → 32, with softplus after the first two.

  The kernel looks the rows up on the host, then runs one pipelined region over 500 blocks of 2000 bonds whose body
  multiplies the four 64-wide feature blocks by the four 64-row slices of the first weight matrix and adds the products;
  the reference concatenates the four pieces into one 256-wide row and multiplies once. Over the extended reals the
  two are one function of the arguments (`Cert.Spec.result`, Proof/Spec.lean):
    * the kernel's result array ends at it (Proof/KernelBody.lean: the body's store at one element; Proof/KernelValue.lean:
      the host's row lookups, the blocks, and the array the 500 write-backs leave);
    * the reference's last stage is it (Proof/RefValue.lean: the gathers, the reshape and the concatenation read at an
      index, the 256-term contraction split into four 64-term ones);
  so the two programs' results are equal element by element. Nothing here needs the inputs to be finite: the only law
  used between the two sides is that a finite sum may be split into consecutive stretches, and both sides clamp an
  out-of-range index in the same way.
  The three frame claims are the generated frames (the reference's is its generated run with the result dropped), and the
  kernel's idealization rewrote nothing.
-/
import proofs.«167409_j18373870092600_1_alg».proof.Defs
import proofs.«167409_j18373870092600_1_alg».proof.Proof.Gen.Kernel
import proofs.«167409_j18373870092600_1_alg».proof.Proof.Gen.Kernel.Skeleton
import proofs.«167409_j18373870092600_1_alg».proof.Proof.Gen.Kernel.Launch
import proofs.«167409_j18373870092600_1_alg».proof.Proof.Gen.Kernel.Points
import proofs.«167409_j18373870092600_1_alg».proof.Proof.Gen.Kernel.Frame
import proofs.«167409_j18373870092600_1_alg».proof.Proof.Gen.KernelIdeal
import proofs.«167409_j18373870092600_1_alg».proof.Proof.Gen.KernelIdeal.Skeleton
import proofs.«167409_j18373870092600_1_alg».proof.Proof.Gen.KernelIdeal.Launch
import proofs.«167409_j18373870092600_1_alg».proof.Proof.Gen.KernelIdeal.Points
import proofs.«167409_j18373870092600_1_alg».proof.Proof.Gen.KernelIdeal.Frame
import proofs.«167409_j18373870092600_1_alg».proof.Proof.Gen.ReferenceIdeal
import proofs.«167409_j18373870092600_1_alg».proof.Proof.Gen.Pre_finite_inputs
import proofs.«167409_j18373870092600_1_alg».proof.Proof.Gen.KernelIdeal.Value
import proofs.«167409_j18373870092600_1_alg».proof.Proof.Gen.ReferenceIdeal.Run
import proofs.«167409_j18373870092600_1_alg».proof.Proof.Gen.ReferenceIdeal.Read
import proofs.«167409_j18373870092600_1_alg».proof.Proof.KernelValue
import proofs.«167409_j18373870092600_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with their result at the specification's
    `result` of those arguments: the kernel's array by the blocks' write-backs, the reference's by its last stage. -/
theorem algebraic : Cert.algebraic_KernelIdeal_ReferenceIdeal := by
  intro m ρ m' ρ' _ hagree
  refine ⟨fun c => Cert.KernelIdeal.KValue.R m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v29_eq, Cert.ReferenceIdeal.RefValue.val_eq_result, h0, h1, h2, h3, h4, h5, h6, h7,
    h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
